-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S256x512 : Shape := ⟨2, ![256, 512]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S512x32768 .f32) (main_arg1 : FVec F S256x512 .f32) (main_arg2 : FVec F S256x512 .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S512x32768 : Shape := ⟨2, ![512, 32768]⟩
abbrev S256x512 : Shape := ⟨2, ![256, 512]⟩
abbrev S512x128x256 : Shape := ⟨3, ![512, 128, 256]⟩
abbrev S_ : Shape := ⟨0, ![]⟩
abbrev S256 : Shape := ⟨1, ![256]⟩
abbrev S256x1 : Shape := ⟨2, ![256, 1]⟩
abbrev S512x256 : Shape := ⟨2, ![512, 256]⟩
abbrev S512x512 : Shape := ⟨2, ![512, 512]⟩
abbrev S512x127x1 : Shape := ⟨3, ![512, 127, 1]⟩
abbrev S512x127x256 : Shape := ⟨3, ![512, 127, 256]⟩
abbrev S16x128x256 : Shape := ⟨3, ![16, 128, 256]⟩
abbrev S16x127x1 : Shape := ⟨3, ![16, 127, 1]⟩
abbrev S16x127x256 : Shape := ⟨3, ![16, 127, 256]⟩
abbrev S16x127x512 : Shape := ⟨3, ![16, 127, 512]⟩
abbrev S16x127 : Shape := ⟨2, ![16, 127]⟩
abbrev S2032x512 : Shape := ⟨2, ![2032, 512]⟩

abbrev nBuf : Space → Nat
  | .hbm => 28
  | .vmem => 9
  | .smem => 0
  | _ => 0

abbrev bufTy : (tb : Table) → Fin (tcTables nBuf tb) → BufTy
  | .hbm, ⟨0, _⟩ => ⟨S512x32768, .f32⟩
  | .hbm, ⟨1, _⟩ => ⟨S256x512, .f32⟩
  | .hbm, ⟨2, _⟩ => ⟨S256x512, .f32⟩
  | .hbm, ⟨3, _⟩ => ⟨S512x128x256, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x512, .f32⟩
  | .hbm, ⟨15, _⟩ => ⟨S256x512, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x512, .f32⟩
  | .hbm, ⟨20, _⟩ => ⟨S256x512, .f32⟩
  | .hbm, ⟨21, _⟩ => ⟨S512x256, .f32⟩
  | .hbm, ⟨22, _⟩ => ⟨S512x256, .f32⟩
  | .hbm, ⟨23, _⟩ => ⟨S512x512, .f32⟩
  | .hbm, ⟨24, _⟩ => ⟨S512x512, .bf16⟩
  | .hbm, ⟨25, _⟩ => ⟨S512x127x1, .f32⟩
  | .hbm, ⟨26, _⟩ => ⟨S512x127x256, .f32⟩
  | .hbm, ⟨27, _⟩ => ⟨S512x127x256, .f32⟩
  | .local _ .vmem, ⟨0, _⟩ => ⟨S16x128x256, .f32⟩
  | .local _ .vmem, ⟨1, _⟩ => ⟨S16x128x256, .f32⟩
  | .local _ .vmem, ⟨2, _⟩ => ⟨S512x512, .bf16⟩
  | .local _ .vmem, ⟨3, _⟩ => ⟨S16x127x1, .f32⟩
  | .local _ .vmem, ⟨4, _⟩ => ⟨S16x127x1, .f32⟩
  | .local _ .vmem, ⟨5, _⟩ => ⟨S16x127x256, .f32⟩
  | .local _ .vmem, ⟨6, _⟩ => ⟨S16x127x256, .f32⟩
  | .local _ .vmem, ⟨7, _⟩ => ⟨S16x127x256, .f32⟩
  | .local _ .vmem, ⟨8, _⟩ => ⟨S16x127x256, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x127x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x127x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x127x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512x32768_S512x128x256 : S512x32768.ShapeCasts S512x128x256
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S256x512_S512x256_1_0 : S256x512.Transposes [1, 0] S512x256
  concatenates_S512x256_S512x256_S512x512_d1 : Shape.Concatenates [S512x256, S512x256] S512x512 1
  bitsLt_bf16_f32 : FTy.bits .bf16 < FTy.bits .f32
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  slices_S16x128x256_o0_0_0_S16x127x256 : S16x128x256.Slices ![0, 0, 0] S16x127x256
  slices_S16x128x256_o0_1_0_S16x127x256 : S16x128x256.Slices ![0, 1, 0] S16x127x256
  concatenates_S16x127x256_S16x127x256_S16x127x512_d2 : Shape.Concatenates [S16x127x256, S16x127x256] S16x127x512 2
  reduces_S16x127x512_S16x127 : S16x127x512.Reduces [2] S16x127
  shapeCasts_S16x127_S16x127x1 : S16x127.ShapeCasts S16x127x1
  broadcasts_S16x127x1_S16x127x512 : S16x127x1.Broadcasts S16x127x512
  shapeCasts_S16x127x512_S2032x512 : S16x127x512.ShapeCasts S2032x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2032x512_S16x127x512 : S2032x512.ShapeCasts S16x127x512
  inb_S16x127x1_S16x127x1_0_0_0 : ∀ a, (![0, 0, 0] : Fin 3 → Nat) a + S16x127x1.size a ≤ S16x127x1.size a
  h_S16x127x1 : 0 < S16x127x1.numel
  slices_S16x127x512_o0_0_0_S16x127x256 : S16x127x512.Slices ![0, 0, 0] S16x127x256
  inb_S16x127x256_S16x127x256_0_0_0 : ∀ a, (![0, 0, 0] : Fin 3 → Nat) a + S16x127x256.size a ≤ S16x127x256.size a
  h_S16x127x256 : 0 < S16x127x256.numel
  slices_S16x127x512_o0_0_256_S16x127x256 : S16x127x512.Slices ![0, 0, 256] S16x127x256
  dot_S2032x512_S512x512_S2032x512_1_0_0_1_n_n_wf : DotDims.WF S2032x512 S512x512 S2032x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S512x128x256.size a
  hwx0_0 : ∀ i : grid0.Coords, EltTy.bits .f32 = 32 ∨ (Rect.block (s := S512x128x256) S16x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x127x1.size a ≤ S512x127x1.size a
  hwx0_2 : ∀ i : grid0.Coords, EltTy.bits .f32 = 32 ∨ (Rect.block (s := S512x127x1) S16x127x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x127x256.size a ≤ S512x127x256.size a
  hwx0_3 : ∀ i : grid0.Coords, EltTy.bits .f32 = 32 ∨ (Rect.block (s := S512x127x256) S16x127x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x127x256.size a ≤ S512x127x256.size a
  hwx0_4 : ∀ i : grid0.Coords, EltTy.bits .f32 = 32 ∨ (Rect.block (s := S512x127x256) S16x127x256.size (cc0_transform_4 i) (hinb0_4 i)).WholeWords (EltTy.packing .f32)

variable [Facts₀]

def dot_S2032x512_S512x512_S2032x512_1_0_0_1_n_n : DotDims S2032x512 S512x512 S2032x512 where
  lhsContracting := [1]
  rhsContracting := [0]
  lhsNonContracting := [0]
  rhsNonContracting := [1]
  lhsBatch := []
  rhsBatch := []
  wf := dot_S2032x512_S512x512_S2032x512_1_0_0_1_n_n_wf

abbrev win0_0 : Pipeline.Window sig grid0 :=
  Pipeline.Window.ofSpec (Memref.whole main_v0) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19_0) S16x127x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_1) S16x127x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_2) S16x127x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x32768 : Shape := ⟨2, ![512, 32768]⟩
abbrev S256x512 : Shape := ⟨2, ![256, 512]⟩
abbrev S127 : Shape := ⟨1, ![127]⟩
abbrev S127x1 : Shape := ⟨2, ![127, 1]⟩
abbrev S_ : Shape := ⟨0, ![]⟩
abbrev S512 : Shape := ⟨1, ![512]⟩
abbrev S1x512 : Shape := ⟨2, ![1, 512]⟩
abbrev S127x512 : Shape := ⟨2, ![127, 512]⟩
abbrev S127x512x1 : Shape := ⟨3, ![127, 512, 1]⟩
abbrev S512x127x512 : Shape := ⟨3, ![512, 127, 512]⟩
abbrev S512x127 : Shape := ⟨2, ![512, 127]⟩
abbrev S512x127x1 : Shape := ⟨3, ![512, 127, 1]⟩
abbrev S256 : Shape := ⟨1, ![256]⟩
abbrev S256x1 : Shape := ⟨2, ![256, 1]⟩
abbrev S512x127x256 : Shape := ⟨3, ![512, 127, 256]⟩

abbrev nBuf : Space → Nat
  | .hbm => 51
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S256x512, .f32⟩
  | .hbm, ⟨2, _⟩ => ⟨S256x512, .f32⟩
  | .hbm, ⟨3, _⟩ => ⟨S127, .i32⟩
  | .hbm, ⟨4, _⟩ => ⟨S127x1, .i32⟩
  | .hbm, ⟨5, _⟩ => ⟨S_, .i32⟩
  | .hbm, ⟨6, _⟩ => ⟨S127x1, .i32⟩
  | .hbm, ⟨7, _⟩ => ⟨S127x1, .i32⟩
  | .hbm, ⟨8, _⟩ => ⟨S512, .i32⟩
  | .hbm, ⟨9, _⟩ => ⟨S1x512, .i32⟩
  | .hbm, ⟨10, _⟩ => ⟨S127x512, .i32⟩
  | .hbm, ⟨11, _⟩ => ⟨S127x512, .i32⟩
  | .hbm, ⟨12, _⟩ => ⟨S127x512, .i32⟩
  | .hbm, ⟨13, _⟩ => ⟨S_, .i32⟩
  | .hbm, ⟨14, _⟩ => ⟨S127x512, .i32⟩
  | .hbm, ⟨15, _⟩ => ⟨S127x512, .i1⟩
  | .hbm, ⟨16, _⟩ => ⟨S_, .i32⟩
  | .hbm, ⟨17, _⟩ => ⟨S127x512, .i32⟩
  | .hbm, ⟨18, _⟩ => ⟨S127x512, .i32⟩
  | .hbm, ⟨19, _⟩ => ⟨S127x512, .i32⟩
  | .hbm, ⟨20, _⟩ => ⟨S127x512x1, .i32⟩
  | .hbm, ⟨21, _⟩ => ⟨S512x127x512, .f32⟩
  | .hbm, ⟨22, _⟩ => ⟨S512x127x512, .f32⟩
  | .hbm, ⟨23, _⟩ => ⟨S_, .f32⟩
  | .hbm, ⟨24, _⟩ => ⟨S512x127, .f32⟩
  | .hbm, ⟨25, _⟩ => ⟨S512x127x1, .f32⟩
  | .hbm, ⟨26, _⟩ => ⟨S512x127x1, .f32⟩
  | .hbm, ⟨27, _⟩ => ⟨S_, .f32⟩
  | .hbm, ⟨28, _⟩ => ⟨S512x127x1, .f32⟩
  | .hbm, ⟨29, _⟩ => ⟨S512x127x1, .f32⟩
  | .hbm, ⟨30, _⟩ => ⟨S512x127x512, .f32⟩
  | .hbm, ⟨31, _⟩ => ⟨S512x127x512, .f32⟩
  | .hbm, ⟨32, _⟩ => ⟨S256x512, .f32⟩
  | .hbm, ⟨33, _⟩ => ⟨S256x512, .f32⟩
  | .hbm, ⟨34, _⟩ => ⟨S256x512, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x512, .f32⟩
  | .hbm, ⟨43, _⟩ => ⟨S256x512, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x512, .f32⟩
  | .hbm, ⟨48, _⟩ => ⟨S256x512, .f32⟩
  | .hbm, ⟨49, _⟩ => ⟨S512x127x256, .f32⟩
  | .hbm, ⟨50, _⟩ => ⟨S512x127x256, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S127_S127x1_0 : S127.BroadcastsInDim S127x1 (![0] : Fin 1 → Fin S127x1.rank)
  bcast_S_S127x1 : S_.BroadcastsInDim S127x1 (![] : Fin 0 → Fin S127x1.rank)
  bcast_S512_S1x512_1 : S512.BroadcastsInDim S1x512 (![1] : Fin 1 → Fin S1x512.rank)
  bcast_S127x1_S127x512_0_1 : S127x1.BroadcastsInDim S127x512 (![0, 1] : Fin 2 → Fin S127x512.rank)
  bcast_S1x512_S127x512_0_1 : S1x512.BroadcastsInDim S127x512 (![0, 1] : Fin 2 → Fin S127x512.rank)
  bcast_S_S127x512 : S_.BroadcastsInDim S127x512 (![] : Fin 0 → Fin S127x512.rank)
  bcast_S127x512_S127x512x1_0_1 : S127x512.BroadcastsInDim S127x512x1 (![0, 1] : Fin 2 → Fin S127x512x1.rank)
  reducesTo_S512x127x512_S512x127_d2 : S512x127x512.ReducesTo [2] S512x127
  h_S_ : 0 < S_.numel
  bcast_S512x127_S512x127x1_0_1 : S512x127.BroadcastsInDim S512x127x1 (![0, 1] : Fin 2 → Fin S512x127x1.rank)
  bcast_S_S512x127x1 : S_.BroadcastsInDim S512x127x1 (![] : Fin 0 → Fin S512x127x1.rank)
  bcast_S512x127x1_S512x127x512_0_1_2 : S512x127x1.BroadcastsInDim S512x127x512 (![0, 1, 2] : Fin 3 → Fin S512x127x512.rank)
  reducesTo_S256x512_S256_d1 : S256x512.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  gather_S512x32768_S127x512x1_S512x127x512_0_1_n_n_1_2_5121_wf : GatherDims.WF S512x32768 S127x512x1 S512x127x512 [0] [1] [] [1] [] 2 ![512, 1]
  dot_S512x127x512_S256x512_S512x127x256_2_1_01_0_n_n_wf : DotDims.WF S512x127x512 S256x512 S512x127x256 [2] [1] [0, 1] [0] [] []

variable [Facts₀]

def gather_S512x32768_S127x512x1_S512x127x512_0_1_n_n_1_2_5121 : GatherDims S512x32768 S127x512x1 S512x127x512 where
  offsetDims := [0]
  collapsedSliceDims := [1]
  operandBatchingDims := []
  startIndicesBatchingDims := []
  startIndexMap := [1]
  indexVectorDim := 2
  sliceSizes := ![512, 1]
  wf := gather_S512x32768_S127x512x1_S512x127x512_0_1_n_n_1_2_5121_wf
def dot_S512x127x512_S256x512_S512x127x256_2_1_01_0_n_n : DotDims S512x127x512 S256x512 S512x127x256 where
  lhsContracting := [2]
  rhsContracting := [1]
  lhsNonContracting := [0, 1]
  rhsNonContracting := [0]
  lhsBatch := []
  rhsBatch := []
  wf := dot_S512x127x512_S256x512_S512x127x256_2_1_01_0_n_n_wf

class Facts : Prop extends Facts₀ where

variable [Facts]
-- ==== Proof.Spec.lean ====
/-
  The mathematics of the certificate, with no program in sight.

  An audio batch `A : [512, 32768]` is cut into 127 half-overlapping frames of 512 samples: frame `f` of row `b`
  holds the samples `A[b, 256·f + w]`, `w < 512`. Each frame is scaled by `1 / (‖frame‖ + ε)` (`‖·‖` the Euclidean
  norm, `ε` the float `0x322BCC77`), each of the 256 basis rows `(R[k, ·], I[k, ·])` by `1 / (√(Σ_w R² + I²) + ε)`, and
  the results are the frame norms and the inner products of a scaled frame with the scaled real and imaginary rows.

  Everything is stated on the extended reals. The one scalar law the two programs differ by is
  `x · (1 / y) = x / y`, which holds for every `y ≠ 0`; here `y = √s + ε` is never `0` because a square root is `⊥`
  or nonnegative and `ε` is a positive real — no finiteness of the inputs is needed.
-/
import Idealize.ShloMosaic.PureOps.Ideal
import Idealize.ShloMosaic.PureOps.Ideal.Laws
import Idealize.ShloMosaic.Lib.ValueIdx

noncomputable section

namespace Cert.Mel

open Idealize.ShloMosaic Idealize.ShloMosaic.ValueIdx

/-- The audio batch and a basis matrix, as arrays of extended reals. -/
abbrev Audio := FVec Ideal ⟨2, ![512, 32768]⟩ .f32
abbrev Basis := FVec Ideal ⟨2, ![256, 512]⟩ .f32

/-- The stabiliser `ε` both programs add to a norm before dividing by it. -/
def eps : EReal := Ideal.ofBits .f32 0x322BCC77#32

/-- Sample `w` of frame `f` sits at position `256·f + w` of its row. -/
def pos (f : Fin 127) (w : Fin 512) : Fin 32768 := ⟨256 * f.val + w.val, by have := f.isLt; have := w.isLt; omega⟩

/-- Sample `w` of frame `f` of row `b`. -/
def frame (A : Audio) (b : Fin 512) (f : Fin 127) (w : Fin 512) : EReal := A (ix2 b (pos f w))

/-- The sum of a frame's squares. -/
def energy (A : Audio) (b : Fin 512) (f : Fin 127) : EReal := ∑ w : Fin 512, frame A b f w * frame A b f w

/-- A frame's Euclidean norm. -/
def norm (A : Audio) (b : Fin 512) (f : Fin 127) : EReal := Ideal.sqrt (energy A b f)

/-- The sum of the squares of basis row `k`, real and imaginary parts together. -/
def benergy (R I : Basis) (k : Fin 256) : EReal := ∑ w : Fin 512, (R (ix2 k w) * R (ix2 k w) + I (ix2 k w) * I (ix2 k w))

/-- The complex norm of basis row `k`. -/
def bnorm (R I : Basis) (k : Fin 256) : EReal := Ideal.sqrt (benergy R I k)

/-- A frame's sample over the frame's norm plus `ε`. -/
def unit (A : Audio) (b : Fin 512) (f : Fin 127) (w : Fin 512) : EReal := Ideal.div (frame A b f w) (norm A b f + eps)

/-- Entry `(k, w)` of the matrix `X` (the real or the imaginary part) over row `k`'s complex norm plus `ε`. -/
def bunit (X R I : Basis) (k : Fin 256) (w : Fin 512) : EReal := Ideal.div (X (ix2 k w)) (bnorm R I k + eps)

/-- The inner product of a scaled frame with scaled row `k` of `X`. -/
def proj (A : Audio) (X R I : Basis) (b : Fin 512) (f : Fin 127) (k : Fin 256) : EReal :=
  ∑ w : Fin 512, unit A b f w * bunit X R I k w

/-- The three results as whole arrays. -/
def Gnorm (A : Audio) : FVec Ideal ⟨3, ![512, 127, 1]⟩ .f32 := fun i => norm A (i 0) (i 1)
def Greal (A : Audio) (R I : Basis) : FVec Ideal ⟨3, ![512, 127, 256]⟩ .f32 := fun i => proj A R R I (i 0) (i 1) (i 2)
def Gimag (A : Audio) (R I : Basis) : FVec Ideal ⟨3, ![512, 127, 256]⟩ .f32 := fun i => proj A I R I (i 0) (i 1) (i 2)

/-! ## What the kernel's two operands hold

The kernel does not read `A`, `R`, `I` themselves: its first operand is the audio re-cut into 128 chunks of 256 samples
per row, its second the two scaled basis matrices transposed and set side by side, `[512, 256 + 256]`. -/

/-- Sample `s` of chunk `ch` of row `b` is sample `256·ch + s` of the row. -/
def chunksOf (A : Audio) : FVec Ideal ⟨3, ![512, 128, 256]⟩ .f32 :=
  fun i => A (ix2 (i 0) ⟨256 * (i 1).val + (i 2).val, by
    have h1 : (i 1).val < 128 := (i 1).isLt; have h2 : (i 2).val < 256 := (i 2).isLt; omega⟩)

/-- Column `j < 256` of the stacked basis is scaled real row `j`, column `j ≥ 256` scaled imaginary row `j − 256`;
    the row index is the sample. -/
def basisT (R I : Basis) : FVec Ideal ⟨2, ![512, 512]⟩ .bf16 :=
  fun i => if h : (i 1).val < 256 then bunit R R I ⟨(i 1).val, h⟩ (i 0)
    else bunit I R I ⟨(i 1).val - 256, by have h1 : (i 1).val < 512 := (i 1).isLt; omega⟩ (i 0)

/-! ## The scalar facts -/

/-- The float `1.0` denotes `1`. -/
theorem ofBits_one : Ideal.ofBits .f32 0x3F800000#32 = 1 := by
  simp [Ideal.ofBits, Ideal.ieee, -EReal.coe_mul]; norm_num

/-- `ε` is a positive real: `11258999 · 2⁻⁵⁰`. -/
theorem eps_pos : 0 < eps := by
  have h : eps = ((11258999 * (2 : ℝ) ^ (-50 : Int) : ℝ) : EReal) := by
    unfold eps
    simp [Ideal.ofBits, Ideal.ieee, -EReal.coe_mul]
  rw [h]
  exact EReal.coe_pos.mpr (by positivity)

/-- A square root is `⊥` or nonnegative. -/
theorem sqrt_bot_or_nonneg (s : EReal) : Ideal.sqrt s = ⊥ ∨ 0 ≤ Ideal.sqrt s := by
  induction s using EReal.rec with
  | bot => exact Or.inl rfl
  | top => exact Or.inr le_top
  | coe r =>
    rw [Ideal.sqrt_coe]
    by_cases h : r < 0
    · rw [if_pos h]; exact Or.inl rfl
    · rw [if_neg h]; exact Or.inr (EReal.coe_nonneg.mpr (Real.sqrt_nonneg r))

/-- So a square root plus `ε` is never zero. -/
theorem sqrt_add_eps_ne_zero (s : EReal) : Ideal.sqrt s + eps ≠ 0 := by
  rcases sqrt_bot_or_nonneg s with h | h
  · rw [h, EReal.bot_add]; exact EReal.bot_ne_zero
  · exact (lt_of_lt_of_le eps_pos (le_add_of_nonneg_left h)).ne'

/-- Multiplying by the reciprocal is dividing, off zero. -/
theorem mul_div_one {y : EReal} (hy : y ≠ 0) (x : EReal) : x * Ideal.div 1 y = Ideal.div x y := by
  rw [Ideal.div, Ideal.div, if_neg hy, if_neg hy, one_mul]

end Cert.Mel

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KernelBody.lean ====
/-
  The kernel body at an index. A grid point's first operand is a block of 16 rows × 128 chunks × 256 samples; the
  body rebuilds each of the 127 frames of a row from two neighbouring chunks (sample `w` of frame `f` is sample
  `w mod 256` of chunk `f + w div 256`), takes the frame's norm, scales the frame by `1 / (norm + ε)` and multiplies
  the 2032 × 512 matrix of scaled frames by the second operand, a 512 × 512 matrix. The three output blocks are the
  norms and the left and right halves of the product. Stated for arbitrary operand blocks.
-/
import proofs.«143068_j68135361184462_1_alg».proof.Proof.Gen.KernelIdeal.Value
import proofs.«143068_j68135361184462_1_alg».proof.Proof.Spec
import proofs.«143068_j68135361184462_1_alg».proof.Proof.LibPlainDot
import Idealize.ShloMosaic.Lib.ValueIdx
import Idealize.ShloMosaic.Lib.Pipeline.Value
import Idealize.ShloMosaic.PureOps.Ideal.Laws

noncomputable section

namespace Cert.Mel.Body

open Cert.KernelIdeal Cert.KernelIdeal.Gen Idealize.ShloMosaic Idealize.ShloMosaic.ValueIdx Cert.Mel

/-- Sample `w` of frame `f` of block row `b`, read off a block of chunks. -/
def bframe (P0 : Vec Ideal S16x128x256 .f32) (b : Fin 16) (f : Fin 127) (w : Fin 512) : EReal :=
  P0 (ix3 b ⟨f.val + w.val / 256, by have := f.isLt; have := w.isLt; omega⟩ ⟨w.val % 256, Nat.mod_lt _ (by decide)⟩)

/-- The sum of that frame's squares. -/
def benergy (P0 : Vec Ideal S16x128x256 .f32) (b : Fin 16) (f : Fin 127) : EReal :=
  ∑ w : Fin 512, bframe P0 b f w * bframe P0 b f w

/-- Entry `(w, j)` of the second operand. -/
def bcol (P1 : Vec Ideal S512x512 .bf16) (w : Fin 512) (j : Fin 512) : EReal := P1 (ix2 w j)

/-- The offsets of a whole-block access, three axes: all zero. -/
theorem offsets3_zero : (![0, 0, 0] : Fin 3 → Nat) = fun _ => 0 := funext fun a => by fin_cases a <;> rfl
/-- The same for two axes. -/
theorem offsets2_zero : (![0, 0] : Fin 2 → Nat) = fun _ => 0 := funext fun a => by fin_cases a <;> rfl

/-- The rebuilt frames at an index: sample `w < 256` of frame `f` comes from chunk `f`, sample `w ≥ 256` from chunk
    `f + 1` at position `w − 256`; both are chunk `f + w div 256` at position `w mod 256`. -/
theorem pay1_apply (P0 : Vec Ideal S16x128x256 .f32) (b : Fin 16) (f : Fin 127) (w : Fin 512) :
    k0_pay1 P0 (ix3 b f w) = bframe P0 b f w := by
  unfold k0_pay1 bframe
  rw [Idealize.ShloMosaic.shapeCast_self]
  have hb := b.isLt; have hf := f.isLt; have hw := w.isLt
  by_cases h : w.val < 256
  · refine (concatenate_pair_apply_left (t := S16x127x512) (s₁ := S16x127x256) (s₂ := S16x127x256) (2 : Fin 3) _ _ _ (ix3 b f w) rfl (ix3 b f (⟨w.val, h⟩ : Fin 256)) ?_).trans ?_
    · intro a; fin_cases a <;> rfl
    · refine extractStridedSlice_apply _ _ _ _ _ ?_
      intro a; fin_cases a
      · show b.val = 0 + b.val; omega
      · show f.val + w.val / 256 = 0 + f.val; omega
      · show w.val % 256 = 0 + w.val; omega
  · refine (concatenate_pair_apply_right (t := S16x127x512) (s₁ := S16x127x256) (s₂ := S16x127x256) (2 : Fin 3) _ _ _ (ix3 b f w) rfl rfl
      (ix3 b f (⟨w.val - 256, by omega⟩ : Fin 256)) ?_ ?_).trans ?_
    · intro a ha; fin_cases a
      · rfl
      · rfl
      · exact absurd rfl ha
    · show w.val - 256 + 256 = w.val; omega
    · refine extractStridedSlice_apply _ _ _ _ _ ?_
      intro a; fin_cases a
      · show b.val = 0 + b.val; omega
      · show f.val + w.val / 256 = 1 + f.val; omega
      · show w.val % 256 = 0 + (w.val - 256); omega

/-- The lane sum of the squared frames is the frame's energy. -/
theorem energy_apply (P0 : Vec Ideal S16x128x256 .f32) (b : Fin 16) (f : Fin 127) :
    multiReduction (F := Ideal) .add [2] S16x127 (mulf (k0_pay1 P0) (k0_pay1 P0)) 0x00000000#32 reduces_S16x127x512_S16x127 (.inl rfl) rfl (ix2 b f)
      = benergy P0 b f := by
  refine (Ideal.multiReduction_add_single _ _ reduces_S16x127x512_S16x127 _ _ (ix2 b f)).trans ?_
  unfold benergy
  refine Finset.sum_congr rfl fun (w : Fin 512) _ => ?_
  have e : reduces_S16x127x512_S16x127.lift (ix2 b f) w = ix3 b f w :=
    funext fun a => by fin_cases a <;> rfl
  rw [mulf_apply, e, pay1_apply]

/-- The norms' payload at an index. -/
theorem pay2_apply (P0 : Vec Ideal S16x128x256 .f32) (b : Fin 16) (f : Fin 127) (z : Fin 1) :
    k0_pay2 P0 (ix3 b f z) = Ideal.sqrt (benergy P0 b f) := by
  have e : k0_pay2 P0 (ix3 b f z) = Ideal.sqrt (shapeCast S16x127x1
      (multiReduction (F := Ideal) .add [2] S16x127 (mulf (k0_pay1 P0) (k0_pay1 P0)) 0x00000000#32 reduces_S16x127x512_S16x127 (.inl rfl) rfl)
      shapeCasts_S16x127_S16x127x1 (ix3 b f z)) := rfl
  rw [e]
  refine congrArg Ideal.sqrt ?_
  refine (shapeCast_apply _ _ (ix3 b f z) (ix2 b f) ?_).trans (energy_apply P0 b f)
  rw [Shape.rowMajor_val_two, Shape.rowMajor_val_three]
  have hz := z.isLt
  show b.val * 127 + f.val = (b.val * 127 + f.val) * 1 + z.val
  omega

/-- The first output block holds the frames' norms. -/
theorem out2_apply (P0 : Vec Ideal S16x128x256 .f32) (P1 : Vec Ideal S512x512 .bf16) (y : S16x127x1.Idx) :
    out0_2 P0 P1 y = Ideal.sqrt (benergy P0 (y 0) (y 1)) := by
  unfold out0_2
  rw [View.ld_unit_zero (S := S16x128x256) offsets3_zero, View.canon_unit_zero (S := S16x127x1) offsets3_zero]
  rw [eq_ix3 y]
  exact pay2_apply P0 (y 0) (y 1) (y 2)

/-- The scaled frames, the left operand of the product, before it is laid out as a matrix. -/
def scaled (P0 : Vec Ideal S16x128x256 .f32) : FVec Ideal S16x127x512 .bf16 :=
  truncf .bf16 (mulf (k0_pay1 P0) (broadcastTo S16x127x512
    (divf (broadcast S16x127x1 (Scalar.ofBits (F := Ideal) .f32 0x3F800000#32))
      (addf (k0_pay2 P0) (broadcast S16x127x1 (Scalar.ofBits (F := Ideal) .f32 0x322BCC77#32))))
    broadcasts_S16x127x1_S16x127x512)) bitsLt_bf16_f32

/-- A scaled frame's sample is the sample over the frame's norm plus `ε`. -/
theorem scaled_apply (P0 : Vec Ideal S16x128x256 .f32) (b : Fin 16) (f : Fin 127) (w : Fin 512) :
    scaled P0 (ix3 b f w) = Ideal.div (bframe P0 b f w) (Ideal.sqrt (benergy P0 b f) + eps) := by
  unfold scaled
  rw [truncf_apply, mulf_apply, pay1_apply]
  rw [broadcastTo_apply _ _ (ix3 b f w) (ix3 b f (0 : Fin 1)) (by
    intro a; fin_cases a
    · rfl
    · rfl
    · rfl)]
  rw [divf_apply, addf_apply, broadcast_apply, broadcast_apply, pay2_apply]
  show bframe P0 b f w * Ideal.div (Ideal.ofBits .f32 0x3F800000#32) (Ideal.sqrt (benergy P0 b f) + eps) = _
  rw [ofBits_one]
  exact mul_div_one (sqrt_add_eps_ne_zero _) _

/-- The product's payload at an index. -/
theorem pay3_apply (P0 : Vec Ideal S16x128x256 .f32) (P1 : Vec Ideal S512x512 .bf16) (b : Fin 16) (f : Fin 127) (j : Fin 512) :
    k0_pay3 P0 P1 (ix3 b f j) = ∑ w : Fin 512, Ideal.div (bframe P0 b f w) (Ideal.sqrt (benergy P0 b f) + eps) * bcol P1 w j := by
  have hb := b.isLt; have hf := f.isLt; have hj := j.isLt
  have e : k0_pay3 P0 P1 = shapeCast S16x127x512
      (matmul (DotDims.plain 2032 512 512) none (shapeCast S2032x512 (scaled P0) shapeCasts_S16x127x512_S2032x512)
        (shapeCast S512x512 P1 shapeCasts_S512x512_S512x512) (constant S2032x512 .f32 0x00000000#32))
      shapeCasts_S2032x512_S16x127x512 := rfl
  rw [e, shapeCast_self]
  refine (shapeCast_apply _ _ (ix3 b f j) (ix2 (⟨127 * b.val + f.val, by omega⟩ : Fin 2032) j) ?_).trans ?_
  · rw [Shape.rowMajor_val_two, Shape.rowMajor_val_three]
    show (127 * b.val + f.val) * 512 + j.val = (b.val * 127 + f.val) * 512 + j.val
    omega
  refine (PlainDot.matmul_zero_apply 2032 512 512 (φ₁ := .bf16) (φ₂ := .bf16) none _ _ _).trans ?_
  refine Finset.sum_congr rfl fun w _ => ?_
  refine congrArg (· * bcol P1 w j) ?_
  refine (shapeCast_apply _ _ _ (ix3 b f w) ?_).trans (scaled_apply P0 b f w)
  rw [Shape.rowMajor_val_two, Shape.rowMajor_val_three]
  have hw := w.isLt
  show (b.val * 127 + f.val) * 512 + w.val = (127 * b.val + f.val) * 512 + w.val
  omega

/-- The second output block holds the scaled frames times the left half of the second operand. -/
theorem out3_apply (P0 : Vec Ideal S16x128x256 .f32) (P1 : Vec Ideal S512x512 .bf16) (y : S16x127x256.Idx) :
    out0_3 P0 P1 y = ∑ w : Fin 512, Ideal.div (bframe P0 (y 0) (y 1) w) (Ideal.sqrt (benergy P0 (y 0) (y 1)) + eps)
      * bcol P1 w ⟨(y 2).val, by have h : (y 2).val < 256 := (y 2).isLt; omega⟩ := by
  unfold out0_3
  rw [View.ld_unit_zero (S := S16x128x256) offsets3_zero, View.ld_unit_zero (S := S512x512) offsets2_zero, Value.canon3_eq]
  have e : Value.ix3_0 y = ix3 (y 0) (y 1) (⟨(y 2).val, by have h : (y 2).val < 256 := (y 2).isLt; omega⟩ : Fin 512) :=
    funext fun a => by fin_cases a <;> rfl
  show k0_pay3 P0 P1 (Value.ix3_0 y) = _
  rw [e]
  exact pay3_apply P0 P1 (y 0) (y 1) _

/-- The third output block holds the scaled frames times the right half of the second operand. -/
theorem out4_apply (P0 : Vec Ideal S16x128x256 .f32) (P1 : Vec Ideal S512x512 .bf16) (y : S16x127x256.Idx) :
    out0_4 P0 P1 y = ∑ w : Fin 512, Ideal.div (bframe P0 (y 0) (y 1) w) (Ideal.sqrt (benergy P0 (y 0) (y 1)) + eps)
      * bcol P1 w ⟨(y 2).val + 256, by have h : (y 2).val < 256 := (y 2).isLt; omega⟩ := by
  unfold out0_4
  rw [View.ld_unit_zero (S := S16x128x256) offsets3_zero, View.ld_unit_zero (S := S512x512) offsets2_zero, Value.canon4_eq]
  have e : Value.ix4_0 y = ix3 (y 0) (y 1) (⟨(y 2).val + 256, by have h : (y 2).val < 256 := (y 2).isLt; omega⟩ : Fin 512) :=
    funext fun a => by fin_cases a <;> rfl
  show k0_pay3 P0 P1 (Value.ix4_0 y) = _
  rw [e]
  exact pay3_apply P0 P1 (y 0) (y 1) _

end Cert.Mel.Body

end
-- ==== Proof.HostPrefix.lean ====
/-
  What the kernel's two operands hold when the region is entered: the host operations before it re-cut the audio
  into chunks and build the scaled, transposed, stacked basis.
-/
import proofs.«143068_j68135361184462_1_alg».proof.Proof.Gen.KernelIdeal.Frame
import proofs.«143068_j68135361184462_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.Mel.Host

open Cert.KernelIdeal Cert.KernelIdeal.Gen Idealize.ShloMosaic Idealize.ShloMosaic.TcCoe Idealize.ShloMosaic.ValueIdx
  Idealize.SL.Sem Cert.Mel

variable (m : (ℓ : Loc nD τ sig) → Buf (Elt Ideal) ℓ)

/-- The first operand is the audio argument cut into chunks. -/
theorem V_chunks (c : Dev nD) :
    (V m c main_v0 : FVec Ideal S512x128x256 .f32) = chunksOf (m ((c : Thread nD τ).loc main_arg0)) := by
  -- the array is the audio argument re-read in the shape [512, 128, 256]
  have e : (V m c main_v0 : S512x128x256.Idx → EReal)
      = shapeCast S512x128x256 (m ((c : Thread nD τ).loc main_arg0) : S512x32768.Idx → EReal)
          shapeCasts_S512x32768_S512x128x256 := by
    dsimp only [Gen.V, Gen.hostOps0]
    after_results
    rfl
  refine e.trans (funext fun i => ?_)
  have h1 : (i 1).val < 128 := (i 1).isLt
  have h2 : (i 2).val < 256 := (i 2).isLt
  unfold chunksOf
  -- both indices sit at row-major position 32768·b + 256·ch + s
  refine shapeCast_apply (s := S512x32768) (t := S512x128x256) _ _ i
    (ix2 (i 0) ⟨256 * (i 1).val + (i 2).val, by omega⟩) ?_
  show ((⟨2, ![512, 32768]⟩ : Shape).rowMajor _).val = ((⟨3, ![512, 128, 256]⟩ : Shape).rowMajor i).val
  rw [Shape.rowMajor_val_two, Shape.rowMajor_val_three]
  show (i 0).val * 32768 + (256 * (i 1).val + (i 2).val) = ((i 0).val * 128 + (i 1).val) * 256 + (i 2).val
  omega

/-- The host's array of denominators: for each basis row, the square root of the summed squares of its real and
    imaginary parts, plus the stabiliser, as a column `[256, 1]`. -/
private def denom (R I : Basis) : FVec Ideal S256x1 .f32 :=
  addf
    (Host.sqrt (broadcastInDim S256x1 ![0] bcast_S256_S256x1_0
      (Host.reduceAdd (F := Ideal) (addf (mulf R R) (mulf I I)) (constant (F := Ideal) S_ .f32 0x00000000#32)
        reducesTo_S256x512_S256_d1 h_S_)))
    (broadcastInDim S256x1 ![] bcast_S_S256x1 (constant (F := Ideal) S_ .f32 0x322BCC77#32))

/-- The summed squares of row `k`, as the host sums them: the initial value `0` plus the sum over the row. -/
private theorem benergy_apply (R I : Basis) (j : S256.Idx) :
    (Host.reduceAdd (F := Ideal) (addf (mulf R R) (mulf I I)) (constant (F := Ideal) S_ .f32 0x00000000#32)
        reducesTo_S256x512_S256_d1 h_S_ : FVec Ideal S256 .f32) j
      = benergy R I ⟨(j 0).val, (j 0).isLt⟩ := by
  simp only [Host.reduceAdd, Ideal.hostReduceAdd_def]
  rw [Ideal.hostReduceAdd_single reducesTo_S256x512_S256_d1 (by decide)]
  rw [constant_apply, Ideal.ofBits_zero_f32, zero_add]
  unfold benergy
  refine Finset.sum_congr rfl fun w _ => ?_
  rw [addf_apply, mulf_apply, mulf_apply]
  have hi : ((by decide : S256x512.Reduces [1] S256).lift j w : S256x512.Idx) = ix2 ⟨(j 0).val, (j 0).isLt⟩ w :=
    funext fun a => Fin.ext (by match a with | ⟨0, _⟩ => rfl | ⟨1, _⟩ => rfl)
  rw [hi]
  rfl

/-- Entry `(k, 0)` of the denominators is row `k`'s complex norm plus `ε`. -/
private theorem denom_apply (R I : Basis) (i : S256x1.Idx) :
    denom R I i = bnorm R I ⟨(i 0).val, (i 0).isLt⟩ + eps := by
  unfold denom bnorm
  rw [addf_apply]
  refine congrArg₂ (· + ·) ?_ ?_
  · show Ideal.sqrt _ = _
    refine congrArg Ideal.sqrt ?_
    refine (broadcastInDim_apply _ bcast_S256_S256x1_0 _ i (fun a => match a with | ⟨0, _⟩ => ⟨(i 0).val, (i 0).isLt⟩)
      (fun a => match a with
        | ⟨0, _⟩ => by show (i 0).val = if (256 : Nat) = 1 then 0 else (i 0).val; rw [if_neg (by decide)])).trans ?_
    exact benergy_apply R I _
  · exact broadcastInDim_apply _ bcast_S_S256x1 _ i (fun a => a.elim0) (fun a => a.elim0)

/-- One half of the stacked basis: the matrix `X` divided row by row by the denominators, transposed, read at
    `(w, k)`, is entry `(k, w)` of `X` over row `k`'s norm plus `ε`. -/
private theorem half_apply (X R I : Basis) (j : S512x256.Idx) :
    (transpose S512x256 [1, 0]
        (Host.divf X (broadcastInDim S256x512 ![0, 1] bcast_S256x1_S256x512_0_1 (denom R I)))
        transposes_S256x512_S512x256_1_0 : FVec Ideal S512x256 .f32) j
      = bunit X R I ⟨(j 1).val, (j 1).isLt⟩ ⟨(j 0).val, (j 0).isLt⟩ := by
  refine (transpose_apply _ _ transposes_S256x512_S512x256_1_0 j
    (ix2 ⟨(j 1).val, (j 1).isLt⟩ ⟨(j 0).val, (j 0).isLt⟩)
    (fun b => match b with | ⟨0, _⟩ => rfl | ⟨1, _⟩ => rfl)).trans ?_
  unfold bunit
  show Ideal.div (X _) _ = _
  refine congrArg (Ideal.div _) ?_
  refine (broadcastInDim_apply _ bcast_S256x1_S256x512_0_1 _ _
    (fun a => match a with | ⟨0, _⟩ => ⟨(j 1).val, (j 1).isLt⟩ | ⟨1, _⟩ => ⟨0, Nat.one_pos⟩)
    (fun a => match a with
      | ⟨0, _⟩ => by show (j 1).val = if (256 : Nat) = 1 then 0 else (j 1).val; rw [if_neg (by decide)]
      | ⟨1, _⟩ => by show 0 = if (1 : Nat) = 1 then 0 else (j 0).val; rw [if_pos rfl])).trans ?_
  exact denom_apply R I _

set_option maxHeartbeats 4000000 in
/-- The second operand is the scaled basis, transposed and stacked. -/
theorem V_basis (c : Dev nD) :
    (V m c main_v18 : FVec Ideal S512x512 .bf16)
      = basisT (m ((c : Thread nD τ).loc main_arg1)) (m ((c : Thread nD τ).loc main_arg2)) := by
  have e : (V m c main_v18 : S512x512.Idx → EReal)
      = truncf (F := Ideal) .bf16 (concatenate S512x512 1
          [⟨S512x256, transpose S512x256 [1, 0]
              (Host.divf (m ((c : Thread nD τ).loc main_arg1) : S256x512.Idx → EReal)
                (broadcastInDim S256x512 ![0, 1] bcast_S256x1_S256x512_0_1
                  (denom (m ((c : Thread nD τ).loc main_arg1)) (m ((c : Thread nD τ).loc main_arg2)))))
              transposes_S256x512_S512x256_1_0⟩,
           ⟨S512x256, transpose S512x256 [1, 0]
              (Host.divf (m ((c : Thread nD τ).loc main_arg2) : S256x512.Idx → EReal)
                (broadcastInDim S256x512 ![0, 1] bcast_S256x1_S256x512_0_1
                  (denom (m ((c : Thread nD τ).loc main_arg1)) (m ((c : Thread nD τ).loc main_arg2)))))
              transposes_S256x512_S512x256_1_0⟩]
          concatenates_S512x256_S512x256_S512x512_d1) bitsLt_bf16_f32 := by
    dsimp only [Gen.V, Gen.hostOps0]
    after_results
    rfl
  refine e.trans (funext fun i => ?_)
  -- read at (w, j): the left half for j < 256, the right half, shifted by 256, otherwise
  have h0 : (i 0).val < 512 := (i 0).isLt
  have h1 : (i 1).val < 512 := (i 1).isLt
  unfold basisT
  rw [truncf_apply]
  by_cases h : (i 1).val < 256
  · rw [dif_pos h]
    refine (concatenate_pair_apply_left (t := S512x512) (s₁ := S512x256) (s₂ := S512x256) (1 : Fin 2) _ _
      concatenates_S512x256_S512x256_S512x512_d1 i rfl
      (ix2 ⟨(i 0).val, h0⟩ ⟨(i 1).val, h⟩) (fun b => match b with | ⟨0, _⟩ => rfl | ⟨1, _⟩ => rfl)).trans ?_
    exact half_apply _ _ _ _
  · rw [dif_neg h]
    refine (concatenate_pair_apply_right (t := S512x512) (s₁ := S512x256) (s₂ := S512x256) (1 : Fin 2) _ _
      concatenates_S512x256_S512x256_S512x512_d1 i rfl rfl
      (ix2 ⟨(i 0).val, h0⟩ ⟨(i 1).val - 256, by omega⟩)
      (fun b hb => match b, hb with | ⟨0, _⟩, _ => rfl | ⟨1, _⟩, hb => absurd rfl hb)
      (by show (i 1).val - 256 + 256 = (i 1).val; omega)).trans ?_
    exact half_apply _ _ _ _

end Cert.Mel.Host
end
-- ==== Proof.Blocks.lean ====
/-
  From blocks to arrays. The grid has 32 points; point `t` works on rows `16·t … 16·t + 15` of the batch: its first
  operand block is those rows of the chunked audio, its second the whole stacked basis, and its three output blocks
  are those rows of the three results. So what point `t` writes back is block `t` of the specification's arrays, the
  32 blocks tile each result array, and each result array ends as the specification's.
-/
import proofs.«143068_j68135361184462_1_alg».proof.Proof.Gen.KernelIdeal.Value
import proofs.«143068_j68135361184462_1_alg».proof.Proof.Spec
import proofs.«143068_j68135361184462_1_alg».proof.Proof.KernelBody
import proofs.«143068_j68135361184462_1_alg».proof.Proof.HostPrefix

noncomputable section

namespace Cert.Mel.Blocks

open Cert.KernelIdeal Cert.KernelIdeal.Gen Cert.KernelIdeal.Value Idealize.ShloMosaic Idealize.ShloMosaic.TcCoe
  Idealize.ShloMosaic.ValueIdx Idealize.SL.Sem Cert.Mel Cert.Mel.Body Cert.Mel.Host
open Idealize.ShloMosaic.Pipeline (Dat)

/-! ## The specification at a block's coordinates -/

/-- The stacked basis at a left-half column is the scaled real row. -/
theorem basisT_left (R I : Basis) (w : Fin 512) (k : Fin 256) :
    basisT R I (ix2 w ⟨k.val, by have := k.isLt; omega⟩) = bunit R R I k w := by
  unfold basisT
  rw [dif_pos (show ((ix2 w (⟨k.val, by have := k.isLt; omega⟩ : Fin 512)) 1).val < 256 from k.isLt)]

/-- The stacked basis at a right-half column is the scaled imaginary row. -/
theorem basisT_right (R I : Basis) (w : Fin 512) (k : Fin 256) :
    basisT R I (ix2 w ⟨k.val + 256, by have := k.isLt; omega⟩) = bunit I R I k w := by
  unfold basisT
  rw [dif_neg (show ¬ ((ix2 w (⟨k.val + 256, by have := k.isLt; omega⟩ : Fin 512)) 1).val < 256 from by
    show ¬ k.val + 256 < 256; omega)]
  refine congrArg (fun q => bunit I R I q w) (Fin.ext ?_)
  show k.val + 256 - 256 = k.val
  omega

section Point

variable (A : Audio) (R I : Basis) (P0 : Vec Ideal S16x128x256 .f32) (P1 : Vec Ideal S512x512 .bf16)
  (r : Nat) (hr : r + 16 ≤ 512)
  (hP0 : ∀ (b : Fin 16) (ch : Fin 128) (s : Fin 256),
    P0 (ix3 b ch s) = A (ix2 ⟨r + b.val, by have := b.isLt; omega⟩ ⟨256 * ch.val + s.val, by have := ch.isLt; have := s.isLt; omega⟩))
  (hP1 : ∀ (w j : Fin 512), P1 (ix2 w j) = basisT R I (ix2 w j))

include hP0 in
/-- When the block of chunks is rows `r … r + 15` of the chunked audio, a frame rebuilt from the block is the audio's
    frame: `256·(f + w div 256) + w mod 256 = 256·f + w`. -/
theorem bframe_of (b : Fin 16) (f : Fin 127) (w : Fin 512) :
    bframe P0 b f w = frame A ⟨r + b.val, by have := b.isLt; omega⟩ f w := by
  unfold bframe frame pos
  rw [hP0]
  refine congrArg A (congrArg (ix2 _) (Fin.ext ?_))
  show 256 * (f.val + w.val / 256) + w.val % 256 = 256 * f.val + w.val
  omega

include hP0 in
theorem benergy_of (b : Fin 16) (f : Fin 127) :
    Body.benergy P0 b f = energy A ⟨r + b.val, by have := b.isLt; omega⟩ f := by
  unfold Body.benergy energy
  exact Finset.sum_congr rfl fun w _ => by rw [bframe_of A P0 r hr hP0 b f w]

include hP0 in
theorem point_norm' (b : Fin 16) (f : Fin 127) (z : Fin 1) :
    out0_2 P0 P1 (ix3 b f z) = Gnorm A (ix3 ⟨r + b.val, by have := b.isLt; omega⟩ f z) := by
  refine (out2_apply P0 P1 (ix3 b f z)).trans ?_
  show Ideal.sqrt (Body.benergy P0 b f) = Ideal.sqrt (energy A ⟨r + b.val, _⟩ f)
  rw [benergy_of A P0 r hr hP0]

include hP0 in
/-- The norms block of such a point is the specification's norms on those rows. -/
theorem point_norm (y : S16x127x1.Idx) :
    out0_2 P0 P1 y = Gnorm A (ix3 ⟨r + (y 0).val, by have h : (y 0).val < 16 := (y 0).isLt; omega⟩
      ⟨(y 1).val, (y 1).isLt⟩ ⟨(y 2).val, (y 2).isLt⟩) := by
  obtain ⟨b, f, z, rfl⟩ : ∃ (b : Fin 16) (f : Fin 127) (z : Fin 1), y = ix3 b f z := ⟨y 0, y 1, y 2, eq_ix3 y⟩
  exact point_norm' A P0 P1 r hr hP0 b f z

include hP0 hP1 in
theorem point_real' (b : Fin 16) (f : Fin 127) (k : Fin 256) :
    out0_3 P0 P1 (ix3 b f k) = Greal A R I (ix3 ⟨r + b.val, by have := b.isLt; omega⟩ f k) := by
  refine (out3_apply P0 P1 (ix3 b f k)).trans ?_
  show (∑ w : Fin 512, Ideal.div (bframe P0 b f w) (Ideal.sqrt (Body.benergy P0 b f) + eps)
      * bcol P1 w ⟨k.val, by have := k.isLt; omega⟩) = proj A R R I ⟨r + b.val, _⟩ f k
  rw [benergy_of A P0 r hr hP0]
  unfold proj unit norm
  refine Finset.sum_congr rfl fun w _ => ?_
  rw [bframe_of A P0 r hr hP0]
  unfold bcol
  rw [hP1, basisT_left R I w k]

include hP0 hP1 in
/-- The left product block of such a point is the specification's real projections on those rows. -/
theorem point_real (y : S16x127x256.Idx) :
    out0_3 P0 P1 y = Greal A R I (ix3 ⟨r + (y 0).val, by have h : (y 0).val < 16 := (y 0).isLt; omega⟩
      ⟨(y 1).val, (y 1).isLt⟩ ⟨(y 2).val, (y 2).isLt⟩) := by
  obtain ⟨b, f, k, rfl⟩ : ∃ (b : Fin 16) (f : Fin 127) (k : Fin 256), y = ix3 b f k := ⟨y 0, y 1, y 2, eq_ix3 y⟩
  exact point_real' A R I P0 P1 r hr hP0 hP1 b f k

include hP0 hP1 in
theorem point_imag' (b : Fin 16) (f : Fin 127) (k : Fin 256) :
    out0_4 P0 P1 (ix3 b f k) = Gimag A R I (ix3 ⟨r + b.val, by have := b.isLt; omega⟩ f k) := by
  refine (out4_apply P0 P1 (ix3 b f k)).trans ?_
  show (∑ w : Fin 512, Ideal.div (bframe P0 b f w) (Ideal.sqrt (Body.benergy P0 b f) + eps)
      * bcol P1 w ⟨k.val + 256, by have := k.isLt; omega⟩) = proj A I R I ⟨r + b.val, _⟩ f k
  rw [benergy_of A P0 r hr hP0]
  unfold proj unit norm
  refine Finset.sum_congr rfl fun w _ => ?_
  rw [bframe_of A P0 r hr hP0]
  unfold bcol
  rw [hP1, basisT_right R I w k]

include hP0 hP1 in
/-- The right product block of such a point is the specification's imaginary projections on those rows. -/
theorem point_imag (y : S16x127x256.Idx) :
    out0_4 P0 P1 y = Gimag A R I (ix3 ⟨r + (y 0).val, by have h : (y 0).val < 16 := (y 0).isLt; omega⟩
      ⟨(y 1).val, (y 1).isLt⟩ ⟨(y 2).val, (y 2).isLt⟩) := by
  obtain ⟨b, f, k, rfl⟩ : ∃ (b : Fin 16) (f : Fin 127) (k : Fin 256), y = ix3 b f k := ⟨y 0, y 1, y 2, eq_ix3 y⟩
  exact point_imag' A R I P0 P1 r hr hP0 hP1 b f k

end Point

/-! ## The grid -/

variable (m : (ℓ : Loc nD τ sig) → Buf (Elt Ideal) ℓ) (ρ : Dev nD → PrngReg)

/-- The printed index maps, decided over the 32 points: the audio window and the three output windows are at block
    `t` on the batch axis and block `0` on the others, the basis window at block `0`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 32 := t.isLt

/-- Point `t`'s block of chunks is rows `16·t …` of the chunked audio. -/
theorem iblk0_apply (c : Dev nD) (t : Fin cfg0.N) (b : Fin 16) (ch : Fin 128) (s : Fin 256) :
    (iblk m c 0 t : Vec Ideal S16x128x256 .f32) (ix3 b ch s)
      = (m ((c : Thread nD τ).loc main_arg0) : Audio) (ix2 ⟨16 * t.val + b.val, by have := t_lt t; have := b.isLt; omega⟩
          ⟨256 * ch.val + s.val, by have := ch.isLt; have := s.isLt; omega⟩) := by
  obtain ⟨e0, e1, e2, -⟩ := idx_facts t
  show (V m c main_v0 : FVec Ideal S512x128x256 .f32) (((cfg0.win 0).blk t).view.emb (ix3 b ch s)) = _
  rw [V_chunks m c]
  unfold chunksOf
  refine congrArg (m ((c : Thread nD τ).loc main_arg0) : Audio) (funext fun a => Fin.ext ?_)
  match a with
  | ⟨0, _⟩ =>
    show win0_0.index t (0 : Fin 3) * 16 + 1 * b.val = 16 * t.val + b.val
    omega
  | ⟨1, _⟩ =>
    show 256 * (win0_0.index t (1 : Fin 3) * 128 + 1 * ch.val) + (win0_0.index t (2 : Fin 3) * 256 + 1 * s.val) = 256 * ch.val + s.val
    omega

/-- Point `t`'s second block is the whole stacked basis. -/
theorem iblk1_apply (c : Dev nD) (t : Fin cfg0.N) (w j : Fin 512) :
    (iblk m c 1 t : Vec Ideal S512x512 .bf16) (ix2 w j)
      = basisT (m ((c : Thread nD τ).loc main_arg1)) (m ((c : Thread nD τ).loc main_arg2)) (ix2 w j) := by
  obtain ⟨-, -, -, e0, e1, -⟩ := idx_facts t
  show (V m c main_v18 : FVec Ideal S512x512 .bf16) (((cfg0.win 1).blk t).view.emb (ix2 w j)) = _
  rw [V_basis m c]
  refine congrArg (basisT _ _) (funext fun a => Fin.ext ?_)
  match a with
  | ⟨0, _⟩ =>
    show win0_1.index t (0 : Fin 2) * 512 + 1 * w.val = w.val
    omega
  | ⟨1, _⟩ =>
    show win0_1.index t (1 : Fin 2) * 512 + 1 * j.val = j.val
    omega

/-! ## What each point writes back -/

theorem flushed_norm (c : Dev nD) (t : Fin cfg0.N) :
    (dats m 0 c).flushed 2 t
      = ((cfg0.win 2).blk t).view.read (Elt Ideal) (Gnorm (m ((c : Thread nD τ).loc main_arg0))) := by
  obtain ⟨-, -, -, -, -, e0, e1, e2, -⟩ := idx_facts t
  rw [flushed2]
  funext j
  show out0_2 (iblk m c 0 t) (iblk m c 1 t) j = Gnorm (m ((c : Thread nD τ).loc main_arg0)) (((cfg0.win 2).blk t).view.emb j)
  refine (point_norm (m ((c : Thread nD τ).loc main_arg0)) (iblk m c 0 t) (iblk m c 1 t) (16 * t.val)
    (by have := t_lt t; omega) (iblk0_apply m c t) j).trans ?_
  refine congrArg (Gnorm (m ((c : Thread nD τ).loc main_arg0))) (funext fun a => Fin.ext ?_)
  match a with
  | ⟨0, _⟩ =>
    show 16 * t.val + (j 0).val = win0_2.index t (0 : Fin 3) * 16 + 1 * (j 0).val
    omega
  | ⟨1, _⟩ =>
    show (j 1).val = win0_2.index t (1 : Fin 3) * 127 + 1 * (j 1).val
    omega
  | ⟨2, _⟩ =>
    show (j 2).val = win0_2.index t (2 : Fin 3) * 1 + 1 * (j 2).val
    omega

theorem flushed_real (c : Dev nD) (t : Fin cfg0.N) :
    (dats m 0 c).flushed 3 t
      = ((cfg0.win 3).blk t).view.read (Elt Ideal) (Greal (m ((c : Thread nD τ).loc main_arg0))
          (m ((c : Thread nD τ).loc main_arg1)) (m ((c : Thread nD τ).loc main_arg2))) := by
  obtain ⟨-, -, -, -, -, -, -, -, e0, e1, e2, -⟩ := idx_facts t
  rw [flushed3]
  funext j
  show out0_3 (iblk m c 0 t) (iblk m c 1 t) j = Greal (m ((c : Thread nD τ).loc main_arg0))
    (m ((c : Thread nD τ).loc main_arg1)) (m ((c : Thread nD τ).loc main_arg2)) (((cfg0.win 3).blk t).view.emb j)
  refine (point_real (m ((c : Thread nD τ).loc main_arg0)) (m ((c : Thread nD τ).loc main_arg1))
    (m ((c : Thread nD τ).loc main_arg2)) (iblk m c 0 t) (iblk m c 1 t) (16 * t.val)
    (by have := t_lt t; omega) (iblk0_apply m c t) (iblk1_apply m c t) j).trans ?_
  refine congrArg (Greal _ _ _) (funext fun a => Fin.ext ?_)
  match a with
  | ⟨0, _⟩ =>
    show 16 * t.val + (j 0).val = win0_3.index t (0 : Fin 3) * 16 + 1 * (j 0).val
    omega
  | ⟨1, _⟩ =>
    show (j 1).val = win0_3.index t (1 : Fin 3) * 127 + 1 * (j 1).val
    omega
  | ⟨2, _⟩ =>
    show (j 2).val = win0_3.index t (2 : Fin 3) * 256 + 1 * (j 2).val
    omega

theorem flushed_imag (c : Dev nD) (t : Fin cfg0.N) :
    (dats m 0 c).flushed 4 t
      = ((cfg0.win 4).blk t).view.read (Elt Ideal) (Gimag (m ((c : Thread nD τ).loc main_arg0))
          (m ((c : Thread nD τ).loc main_arg1)) (m ((c : Thread nD τ).loc main_arg2))) := by
  obtain ⟨-, -, -, -, -, -, -, -, -, -, -, e0, e1, e2⟩ := idx_facts t
  rw [flushed4]
  funext j
  show out0_4 (iblk m c 0 t) (iblk m c 1 t) j = Gimag (m ((c : Thread nD τ).loc main_arg0))
    (m ((c : Thread nD τ).loc main_arg1)) (m ((c : Thread nD τ).loc main_arg2)) (((cfg0.win 4).blk t).view.emb j)
  refine (point_imag (m ((c : Thread nD τ).loc main_arg0)) (m ((c : Thread nD τ).loc main_arg1))
    (m ((c : Thread nD τ).loc main_arg2)) (iblk m c 0 t) (iblk m c 1 t) (16 * t.val)
    (by have := t_lt t; omega) (iblk0_apply m c t) (iblk1_apply m c t) j).trans ?_
  refine congrArg (Gimag _ _ _) (funext fun a => Fin.ext ?_)
  match a with
  | ⟨0, _⟩ =>
    show 16 * t.val + (j 0).val = win0_4.index t (0 : Fin 3) * 16 + 1 * (j 0).val
    omega
  | ⟨1, _⟩ =>
    show (j 1).val = win0_4.index t (1 : Fin 3) * 127 + 1 * (j 1).val
    omega
  | ⟨2, _⟩ =>
    show (j 2).val = win0_4.index t (2 : Fin 3) * 256 + 1 * (j 2).val
    omega

/-! ## The blocks tile the arrays -/

theorem mem_blk2 (t : Fin cfg0.N) (i : S512x127x1.Idx) :
    i ∈ ((cfg0.win 2).blk t).view.set ↔ ∀ a : Fin 3, win0_2.index t a * S16x127x1.size a ≤ (i a).val
      ∧ (i a).val < win0_2.index t a * S16x127x1.size a + S16x127x1.size a := by
  show i ∈ ((View.whole main_v19_0).slice (win0_2.rect t)).set ↔ _
  rw [View.set_slice_whole, Rect.mem_set_unit]
  exact Iff.rfl

theorem mem_blk3 (t : Fin cfg0.N) (i : S512x127x256.Idx) :
    i ∈ ((cfg0.win 3).blk t).view.set ↔ ∀ a : Fin 3, win0_3.index t a * S16x127x256.size a ≤ (i a).val
      ∧ (i a).val < win0_3.index t a * S16x127x256.size a + S16x127x256.size a := by
  show i ∈ ((View.whole main_v19_1).slice (win0_3.rect t)).set ↔ _
  rw [View.set_slice_whole, Rect.mem_set_unit]
  exact Iff.rfl

theorem mem_blk4 (t : Fin cfg0.N) (i : S512x127x256.Idx) :
    i ∈ ((cfg0.win 4).blk t).view.set ↔ ∀ a : Fin 3, win0_4.index t a * S16x127x256.size a ≤ (i a).val
      ∧ (i a).val < win0_4.index t a * S16x127x256.size a + S16x127x256.size a := by
  show i ∈ ((View.whole main_v19_2).slice (win0_4.rect t)).set ↔ _
  rw [View.set_slice_whole, Rect.mem_set_unit]
  exact Iff.rfl

/-- The point that covers row `i` is `i div 16`. -/
def pointOf (q : Nat) (hq : q < 512) : Fin cfg0.N := ⟨q / 16, by show q / 16 < 32; omega⟩

theorem cover2 (i : S512x127x1.Idx) :
    ∃ t : Fin cfg0.N, (cfg0.win 2).flush t = true ∧ i ∈ ((cfg0.win 2).blk t).view.set := by
  have hi0 : (i 0).val < 512 := (i 0).isLt
  have hi1 : (i 1).val < 127 := (i 1).isLt
  have hi2 : (i 2).val < 1 := (i 2).isLt
  refine ⟨pointOf (i 0).val hi0, flush0_2 _, ?_⟩
  obtain ⟨-, -, -, -, -, e0, e1, e2, -⟩ := idx_facts (pointOf (i 0).val hi0)
  have e0' : win0_2.index (pointOf (i 0).val hi0) (0 : Fin 3) = (i 0).val / 16 := e0
  rw [mem_blk2]
  intro a
  match a with
  | ⟨0, _⟩ =>
    show win0_2.index (pointOf (i 0).val hi0) (0 : Fin 3) * 16 ≤ (i 0).val
      ∧ (i 0).val < win0_2.index (pointOf (i 0).val hi0) (0 : Fin 3) * 16 + 16
    omega
  | ⟨1, _⟩ =>
    show win0_2.index (pointOf (i 0).val hi0) (1 : Fin 3) * 127 ≤ (i 1).val
      ∧ (i 1).val < win0_2.index (pointOf (i 0).val hi0) (1 : Fin 3) * 127 + 127
    omega
  | ⟨2, _⟩ =>
    show win0_2.index (pointOf (i 0).val hi0) (2 : Fin 3) * 1 ≤ (i 2).val
      ∧ (i 2).val < win0_2.index (pointOf (i 0).val hi0) (2 : Fin 3) * 1 + 1
    omega

theorem cover3 (i : S512x127x256.Idx) :
    ∃ t : Fin cfg0.N, (cfg0.win 3).flush t = true ∧ i ∈ ((cfg0.win 3).blk t).view.set := by
  have hi0 : (i 0).val < 512 := (i 0).isLt
  have hi1 : (i 1).val < 127 := (i 1).isLt
  have hi2 : (i 2).val < 256 := (i 2).isLt
  refine ⟨pointOf (i 0).val hi0, flush0_3 _, ?_⟩
  obtain ⟨-, -, -, -, -, -, -, -, e0, e1, e2, -⟩ := idx_facts (pointOf (i 0).val hi0)
  have e0' : win0_3.index (pointOf (i 0).val hi0) (0 : Fin 3) = (i 0).val / 16 := e0
  rw [mem_blk3]
  intro a
  match a with
  | ⟨0, _⟩ =>
    show win0_3.index (pointOf (i 0).val hi0) (0 : Fin 3) * 16 ≤ (i 0).val
      ∧ (i 0).val < win0_3.index (pointOf (i 0).val hi0) (0 : Fin 3) * 16 + 16
    omega
  | ⟨1, _⟩ =>
    show win0_3.index (pointOf (i 0).val hi0) (1 : Fin 3) * 127 ≤ (i 1).val
      ∧ (i 1).val < win0_3.index (pointOf (i 0).val hi0) (1 : Fin 3) * 127 + 127
    omega
  | ⟨2, _⟩ =>
    show win0_3.index (pointOf (i 0).val hi0) (2 : Fin 3) * 256 ≤ (i 2).val
      ∧ (i 2).val < win0_3.index (pointOf (i 0).val hi0) (2 : Fin 3) * 256 + 256
    omega

theorem cover4 (i : S512x127x256.Idx) :
    ∃ t : Fin cfg0.N, (cfg0.win 4).flush t = true ∧ i ∈ ((cfg0.win 4).blk t).view.set := by
  have hi0 : (i 0).val < 512 := (i 0).isLt
  have hi1 : (i 1).val < 127 := (i 1).isLt
  have hi2 : (i 2).val < 256 := (i 2).isLt
  refine ⟨pointOf (i 0).val hi0, flush0_4 _, ?_⟩
  obtain ⟨-, -, -, -, -, -, -, -, -, -, -, e0, e1, e2⟩ := idx_facts (pointOf (i 0).val hi0)
  have e0' : win0_4.index (pointOf (i 0).val hi0) (0 : Fin 3) = (i 0).val / 16 := e0
  rw [mem_blk4]
  intro a
  match a with
  | ⟨0, _⟩ =>
    show win0_4.index (pointOf (i 0).val hi0) (0 : Fin 3) * 16 ≤ (i 0).val
      ∧ (i 0).val < win0_4.index (pointOf (i 0).val hi0) (0 : Fin 3) * 16 + 16
    omega
  | ⟨1, _⟩ =>
    show win0_4.index (pointOf (i 0).val hi0) (1 : Fin 3) * 127 ≤ (i 1).val
      ∧ (i 1).val < win0_4.index (pointOf (i 0).val hi0) (1 : Fin 3) * 127 + 127
    omega
  | ⟨2, _⟩ =>
    show win0_4.index (pointOf (i 0).val hi0) (2 : Fin 3) * 256 ≤ (i 2).val
      ∧ (i 2).val < win0_4.index (pointOf (i 0).val hi0) (2 : Fin 3) * 256 + 256
    omega

/-! ## The arrays after the run -/

theorem final_norm (c : Dev nD) :
    (dats m 0 c).arrAt 2 cfg0.N = Gnorm (m ((c : Thread nD τ).loc main_arg0)) :=
  (dats m 0 c).arrAt_eq_of_cover 2 (Gnorm (m ((c : Thread nD τ).loc main_arg0))) (fun t _ => flushed_norm m c t) cover2

theorem final_real (c : Dev nD) :
    (dats m 0 c).arrAt 3 cfg0.N = Greal (m ((c : Thread nD τ).loc main_arg0)) (m ((c : Thread nD τ).loc main_arg1))
      (m ((c : Thread nD τ).loc main_arg2)) :=
  (dats m 0 c).arrAt_eq_of_cover 3 (Greal (m ((c : Thread nD τ).loc main_arg0)) (m ((c : Thread nD τ).loc main_arg1))
      (m ((c : Thread nD τ).loc main_arg2))) (fun t _ => flushed_real m c t) cover3

theorem final_imag (c : Dev nD) :
    (dats m 0 c).arrAt 4 cfg0.N = Gimag (m ((c : Thread nD τ).loc main_arg0)) (m ((c : Thread nD τ).loc main_arg1))
      (m ((c : Thread nD τ).loc main_arg2)) :=
  (dats m 0 c).arrAt_eq_of_cover 4 (Gimag (m ((c : Thread nD τ).loc main_arg0)) (m ((c : Thread nD τ).loc main_arg1))
      (m ((c : Thread nD τ).loc main_arg2))) (fun t _ => flushed_imag m c t) cover4

/-- The kernel program's run: every weakly fair execution ends with the three results at the specification's arrays
    of the arguments, and the arguments unchanged. -/
theorem run : θ_run defs (onTc (τ := τ) (main (F := Ideal))) ⟨m, fun _ => 0, ρ⟩ fun r => ∀ c : Dev nD,
      r.2.mem ((c : Thread nD τ).loc main_v19_0) = Gnorm (m ((c : Thread nD τ).loc main_arg0))
      ∧ r.2.mem ((c : Thread nD τ).loc main_v19_1) = Greal (m ((c : Thread nD τ).loc main_arg0))
          (m ((c : Thread nD τ).loc main_arg1)) (m ((c : Thread nD τ).loc main_arg2))
      ∧ r.2.mem ((c : Thread nD τ).loc main_v19_2) = Gimag (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_norm m c), (h c).2.1.trans (final_real m c),
      (h c).2.2.1.trans (final_imag m c), (h c).2.2.2⟩)
    (run_blocks m ρ)

end Cert.Mel.Blocks

end
-- ==== Proof.RefGather.lean ====
/-
  The reference's framing: its gather reads, at result index `(b, f, w)`, the audio at `(b, 256·f + w)`. The start
  index it is given is `256·f + w` computed in 32-bit integers, which is never negative and never past the last
  position at which a one-sample slice fits, so neither the wrap-around select nor the clamp changes it.
-/
import proofs.«143068_j68135361184462_1_alg».proof.Proof.Gen.ReferenceIdeal.Read
import proofs.«143068_j68135361184462_1_alg».proof.Proof.Spec
import Idealize.ShloMosaic.Lib.ValueIdx
import Idealize.ShloMosaic.Lib.Pipeline.Value
import Idealize.ShloMosaic.Lib.StableHlo.Predicate

noncomputable section

namespace Cert.Mel.Ref

open Cert.ReferenceIdeal Cert.ReferenceIdeal.Gen Cert.ReferenceIdeal.Read Idealize.ShloMosaic Idealize.ShloMosaic.ValueIdx Cert.Mel
open Idealize.ShloMosaic.StableHlo

/-- The start-indices index `(f, w, 0)` at which result index `(b, f, w)` reads its start index. -/
abbrev startIdx (i : S512x127x512.Idx) : S127x512x1.Idx := fun a => match a with
  | ⟨0, _⟩ => ⟨(i 1).val, (i 1).isLt⟩
  | ⟨1, _⟩ => ⟨(i 2).val, (i 2).isLt⟩
  | ⟨2, _⟩ => ⟨0, Nat.one_pos⟩

/-- In 32-bit arithmetic `f · 256 + w` is the word of `256·f + w`. -/
theorem word_eq (f w : Nat) :
    IntOp.addi (IntOp.muli (BitVec.ofNat 32 f) 256#32) (BitVec.ofNat 32 w) = BitVec.ofNat 32 (256 * f + w) := by
  unfold IntOp.addi IntOp.muli
  apply BitVec.eq_of_toNat_eq
  simp only [BitVec.toNat_add, BitVec.toNat_mul, BitVec.toNat_ofNat]
  omega

/-- The start index given at `(f, w, 0)` is the 32-bit word of `256·f + w`: that word is below `2³¹`, so it does
    not compare below zero and the wrap-around select leaves it alone. -/
theorem start_word (i : S512x127x512.Idx) :
    val_main_v14 (F := Ideal) (startIdx i) = BitVec.ofNat 32 (256 * (i 1).val + (i 2).val) := by
  have h1 : (i 1).val < 127 := (i 1).isLt
  have h2 : (i 2).val < 512 := (i 2).isLt
  rw [val_main_v14_apply, val_main_v13_apply, val_main_v10_apply, val_main_v12_apply, val_main_v8_apply,
    val_main_v6_apply, val_main_v7_apply, val_main_v3_apply, val_main_v1_apply, val_main_v2_apply, val_main_v5_apply,
    val_main_v0_apply, val_main_c_apply, val_main_v4_apply, val_main_v9_apply, val_main_c_0_apply,
    val_main_v11_apply, val_main_c_1_apply]
  show Scalar.select (IntOp.cmpi .slt (IntOp.addi (IntOp.muli (BitVec.ofNat 32 (i 1).val) 256#32) (BitVec.ofNat 32 (i 2).val)) 0#32)
    (IntOp.addi (IntOp.addi (IntOp.muli (BitVec.ofNat 32 (i 1).val) 256#32) (BitVec.ofNat 32 (i 2).val)) 32768#32)
    (IntOp.addi (IntOp.muli (BitVec.ofNat 32 (i 1).val) 256#32) (BitVec.ofNat 32 (i 2).val)) = _
  rw [word_eq]
  have hlt : (BitVec.ofNat 32 (256 * (i 1).val + (i 2).val)).toNat < 2 ^ 31 := by
    rw [BitVec.toNat_ofNat, Nat.mod_eq_of_lt (by omega)]; omega
  have hc : ¬ IntOp.cmpi .slt (BitVec.ofNat 32 (256 * (i 1).val + (i 2).val)) 0#32 = 1#1 := fun h =>
    Nat.not_lt_zero _ ((Predicate.slt_iff_toNat hlt (by decide)).mp h)
  unfold Scalar.select
  exact if_neg hc

/-- The gathered tensor at `(b, f, w)` is sample `w` of frame `f` of row `b`. -/
theorem gather_apply (x0 : (⟨S512x32768, .f32⟩ : BufTy).Contents (Elt Ideal)) (i : S512x127x512.Idx) :
    val_main_v15 (F := Ideal) x0 i = frame x0 (i 0) (i 1) (i 2) := by
  have h1 : (i 1).val < 127 := (i 1).isLt
  have h2 : (i 2).val < 512 := (i 2).isLt
  unfold val_main_v15 Host.gather frame
  refine congrArg x0 (funext fun a => Fin.ext ?_)
  match a with
  | ⟨0, p0⟩ =>
    show GatherDims.start _ i _ (0 : Fin S512x32768.rank) + GatherDims.batchCoord _ i (0 : Fin S512x32768.rank)
      + GatherDims.offCoord _ i (0 : Fin S512x32768.rank) = (i 0).val
    rw [GatherDims.batchCoord_eq_zero _ _ _ List.not_mem_nil]
    unfold GatherDims.start GatherDims.offCoord
    rw [dif_neg (show ¬ (0 : Fin S512x32768.rank) ∈ gather_S512x32768_S127x512x1_S512x127x512_0_1_n_n_1_2_5121.startIndexMap by decide),
      dif_pos (show (0 : Fin S512x32768.rank) ∈ gather_S512x32768_S127x512x1_S512x127x512_0_1_n_n_1_2_5121.sKept by decide)]
    simp only [Nat.add_zero, Nat.zero_add]
    rfl
  | ⟨1, p1⟩ =>
    show GatherDims.start _ i _ ⟨1, p1⟩ + GatherDims.batchCoord _ i ⟨1, p1⟩ + GatherDims.offCoord _ i ⟨1, p1⟩
      = 256 * (i 1).val + (i 2).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, p1⟩ : Fin S512x32768.rank) ∈ gather_S512x32768_S127x512x1_S512x127x512_0_1_n_n_1_2_5121.startIndexMap
      from List.mem_singleton.mpr rfl)]
    have hsi : gather_S512x32768_S127x512x1_S512x127x512_0_1_n_n_1_2_5121.siIdx i
        ⟨List.idxOf (⟨1, p1⟩ : Fin S512x32768.rank) gather_S512x32768_S127x512x1_S512x127x512_0_1_n_n_1_2_5121.startIndexMap,
          List.idxOf_lt_length_iff.2 (List.mem_singleton.mpr rfl)⟩ = startIdx i := by
      funext b; refine Fin.ext ?_
      match b with
      | ⟨0, _⟩ => rfl
      | ⟨1, _⟩ => rfl
      | ⟨2, _⟩ => rfl
    rw [hsi, start_word, Predicate.toInt_ofNat_small _ (by omega), Int.toNat_natCast]
    exact Nat.min_eq_left (show 256 * (i 1).val + (i 2).val ≤ 32768 - 1 by omega)

end Cert.Mel.Ref

end
-- ==== Proof.RefSpec.lean ====
/-
  The reference's three results are the specification's three arrays. Index by index: the gathered tensor is the
  frames, the host's float sum with initial value zero is the plain sum, its square root and quotient are the
  extended reals' own, the broadcasts repeat a row's norm plus the constant along the row, and each contraction is
  the sum over the 512 samples of a scaled frame entry times a scaled basis entry.
-/
import proofs.«143068_j68135361184462_1_alg».proof.Proof.RefGather

noncomputable section

namespace Cert.Mel.Ref

open Cert.ReferenceIdeal Cert.ReferenceIdeal.Gen Cert.ReferenceIdeal.Read Idealize.ShloMosaic Idealize.ShloMosaic.ValueIdx Cert.Mel

/-- The norms result. -/
theorem norm_eq (x0 : (⟨S512x32768, .f32⟩ : BufTy).Contents (Elt Ideal)) :
    val_main_v16 (F := Ideal) x0 = Gnorm x0 := by
  funext i
  rw [val_main_v16_apply, val_main_call0_v2_apply, val_main_call0_v1_apply]
  simp only [val_main_call0_v0_apply, gather_apply, val_main_call0_cst_apply]
  show Ideal.sqrt (Ideal.ofBits .f32 0x00000000#32 + ∑ k : Fin 512, frame x0 (i 0) (i 1) k * frame x0 (i 0) (i 1) k)
    = Ideal.sqrt (∑ w : Fin 512, frame x0 (i 0) (i 1) w * frame x0 (i 0) (i 1) w)
  rw [Ideal.ofBits_zero_f32, zero_add]

/-- The frames divided by their norm plus the constant. -/
theorem unit_eq (x0 : (⟨S512x32768, .f32⟩ : BufTy).Contents (Elt Ideal)) (j : S512x127x512.Idx) :
    val_main_v20 (F := Ideal) x0 j = unit x0 (j 0) (j 1) (j 2) := by
  rw [val_main_v20_apply, val_main_v19_apply, val_main_v18_apply, val_main_v17_apply, val_main_cst_apply, norm_eq,
    gather_apply]
  rfl

/-- The real basis matrix divided by the rows' complex norms plus the constant. -/
theorem bunit_real_eq (x1 x2 : (⟨S256x512, .f32⟩ : BufTy).Contents (Elt Ideal)) (j : S256x512.Idx) :
    val_main_v30 (F := Ideal) x1 x2 j = bunit x1 x1 x2 (j 0) (j 1) := by
  rw [val_main_v30_apply, val_main_v29_apply, val_main_v28_apply, val_main_v27_apply, val_main_cst_3_apply,
    val_main_v26_apply, val_main_v25_apply, val_main_v24_apply]
  simp only [val_main_v23_apply, val_main_v21_apply, val_main_v22_apply, val_main_cst_2_apply]
  have hidx : ∀ k : Fin 512, idx_main_v24 (idx_main_v25 (idx_main_v29 j)) k = ix2 (j 0) k := fun k =>
    funext fun a => Fin.ext (by match a with | ⟨0, _⟩ => rfl | ⟨1, _⟩ => rfl)
  simp only [hidx]
  show Ideal.div (x1 j) (Ideal.sqrt (Ideal.ofBits .f32 0x00000000#32
      + ∑ k : Fin 512, (x1 (ix2 (j 0) k) * x1 (ix2 (j 0) k) + x2 (ix2 (j 0) k) * x2 (ix2 (j 0) k))) + eps)
    = Ideal.div (x1 (ix2 (j 0) (j 1))) (Ideal.sqrt (∑ w : Fin 512, (x1 (ix2 (j 0) w) * x1 (ix2 (j 0) w)
      + x2 (ix2 (j 0) w) * x2 (ix2 (j 0) w))) + eps)
  rw [Ideal.ofBits_zero_f32, zero_add]
  exact congrArg (fun e => Ideal.div e _) (congrArg x1 (eq_ix2 j))

/-- The imaginary basis matrix divided by the same norms plus the constant. -/
theorem bunit_imag_eq (x1 x2 : (⟨S256x512, .f32⟩ : BufTy).Contents (Elt Ideal)) (j : S256x512.Idx) :
    val_main_v34 (F := Ideal) x1 x2 j = bunit x2 x1 x2 (j 0) (j 1) := by
  rw [val_main_v34_apply, val_main_v33_apply, val_main_v32_apply, val_main_v31_apply, val_main_cst_4_apply,
    val_main_v26_apply, val_main_v25_apply, val_main_v24_apply]
  simp only [val_main_v23_apply, val_main_v21_apply, val_main_v22_apply, val_main_cst_2_apply]
  have hidx : ∀ k : Fin 512, idx_main_v24 (idx_main_v25 (idx_main_v33 j)) k = ix2 (j 0) k := fun k =>
    funext fun a => Fin.ext (by match a with | ⟨0, _⟩ => rfl | ⟨1, _⟩ => rfl)
  simp only [hidx]
  show Ideal.div (x2 j) (Ideal.sqrt (Ideal.ofBits .f32 0x00000000#32
      + ∑ k : Fin 512, (x1 (ix2 (j 0) k) * x1 (ix2 (j 0) k) + x2 (ix2 (j 0) k) * x2 (ix2 (j 0) k))) + eps)
    = Ideal.div (x2 (ix2 (j 0) (j 1))) (Ideal.sqrt (∑ w : Fin 512, (x1 (ix2 (j 0) w) * x1 (ix2 (j 0) w)
      + x2 (ix2 (j 0) w) * x2 (ix2 (j 0) w))) + eps)
  rw [Ideal.ofBits_zero_f32, zero_add]
  exact congrArg (fun e => Ideal.div e _) (congrArg x2 (eq_ix2 j))

/-- The real projections. -/
theorem real_eq (x0 : (⟨S512x32768, .f32⟩ : BufTy).Contents (Elt Ideal)) (x1 x2 : (⟨S256x512, .f32⟩ : BufTy).Contents (Elt Ideal)) :
    val_main_v35 (F := Ideal) x0 x1 x2 = Greal x0 x1 x2 := by
  funext i
  rw [val_main_v35_apply]
  simp only [unit_eq, bunit_real_eq]
  rfl

/-- The imaginary projections. -/
theorem imag_eq (x0 : (⟨S512x32768, .f32⟩ : BufTy).Contents (Elt Ideal)) (x1 x2 : (⟨S256x512, .f32⟩ : BufTy).Contents (Elt Ideal)) :
    val_main_v36 (F := Ideal) x0 x1 x2 = Gimag x0 x1 x2 := by
  funext i
  rw [val_main_v36_apply]
  simp only [unit_eq, bunit_imag_eq]
  rfl

end Cert.Mel.Ref

end
-- ==== Proof.lean ====
/-
  A batch of audio rows is cut into half-overlapping frames of 512 samples; each frame is divided by its Euclidean
  norm plus a small positive constant and projected onto 256 complex basis rows, each divided by its own norm plus
  the same constant. The results are the frame norms and the real and imaginary parts of the projections.

  The kernel works on the audio re-cut into chunks of 256 samples, so that a frame is two neighbouring chunks side
  by side, sixteen rows per grid point; it multiplies each frame by the reciprocal of its norm plus the constant,
  and takes all projections of a block in one matrix product against the two scaled basis matrices, transposed and
  set side by side. The reference gathers the frames, divides them by the norm plus the constant, and contracts with
  each scaled basis matrix separately. On the extended reals the two agree entry by entry: a change of float format is
  the identity, sums may be taken in any order, and `x · (1 / y) = x / y` whenever `y ≠ 0` — which holds here for every
  input, a square root being `⊥` or nonnegative and the constant positive. The inputs' finiteness is not used.

  Both runs are stated against ONE specification (Proof/Spec.lean): the kernel's result arrays are it block by block
  (Proof/KernelBody.lean, Proof/HostPrefix.lean, Proof/Blocks.lean), and the reference's result terms are it index by
  index (Proof/RefGather.lean, Proof/RefSpec.lean). The idealization rewrote nothing, so `preserves` has no conjunct.
-/
import proofs.«143068_j68135361184462_1_alg».proof.Defs
import proofs.«143068_j68135361184462_1_alg».proof.Proof.Gen.Kernel
import proofs.«143068_j68135361184462_1_alg».proof.Proof.Gen.Kernel.Skeleton
import proofs.«143068_j68135361184462_1_alg».proof.Proof.Gen.Kernel.Launch
import proofs.«143068_j68135361184462_1_alg».proof.Proof.Gen.Kernel.Points
import proofs.«143068_j68135361184462_1_alg».proof.Proof.Gen.Kernel.Frame
import proofs.«143068_j68135361184462_1_alg».proof.Proof.Gen.KernelIdeal
import proofs.«143068_j68135361184462_1_alg».proof.Proof.Gen.KernelIdeal.Skeleton
import proofs.«143068_j68135361184462_1_alg».proof.Proof.Gen.KernelIdeal.Launch
import proofs.«143068_j68135361184462_1_alg».proof.Proof.Gen.KernelIdeal.Points
import proofs.«143068_j68135361184462_1_alg».proof.Proof.Gen.KernelIdeal.Frame
import proofs.«143068_j68135361184462_1_alg».proof.Proof.Gen.ReferenceIdeal
import proofs.«143068_j68135361184462_1_alg».proof.Proof.Gen.KernelIdeal.Value
import proofs.«143068_j68135361184462_1_alg».proof.Proof.Gen.ReferenceIdeal.Run
import proofs.«143068_j68135361184462_1_alg».proof.Proof.Gen.ReferenceIdeal.Read
import proofs.«143068_j68135361184462_1_alg».proof.Proof.Gen.Pre_finite_inputs
import proofs.«143068_j68135361184462_1_alg».proof.Proof.Blocks
import proofs.«143068_j68135361184462_1_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments both programs end with the specification's three arrays of those
    arguments. -/
theorem algebraic : Cert.algebraic_KernelIdeal_ReferenceIdeal := by
  intro m ρ m' ρ' _ hagree
  refine ⟨_, _, _, Cert.Mel.Blocks.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v16_eq, Cert.Mel.Ref.norm_eq, (hagree c).1]
  · rw [(h c).2.1, Cert.ReferenceIdeal.Read.val_main_v35_eq, Cert.Mel.Ref.real_eq, (hagree c).1, (hagree c).2.1,
      (hagree c).2.2]
  · rw [(h c).2.2.1, Cert.ReferenceIdeal.Read.val_main_v36_eq, Cert.Mel.Ref.imag_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
